-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1048576 : Shape := ⟨2, ![16, 1048576]⟩
abbrev S_ : Shape := ⟨0, ![]⟩

class Facts : Prop where
  bcast_S_S16x1048576 : S_.BroadcastsInDim S16x1048576 (![] : Fin 0 → Fin S16x1048576.rank)
  reducesTo_S16x1048576_S_d0_1 : S16x1048576.ReducesTo [0, 1] S_
  h_S_ : 0 < S_.numel

variable [Facts]

def fn {F : FTy → Type} [FloatOps F] (main_arg0 : FVec F S16x1048576 .f32) : IVec S_ 1 :=
  let main_v0 : FVec F S16x1048576 .f32 := Host.absf main_arg0
  let main_cst : FVec F S_ .f32 := constant S_ .f32 0x7F800000#32
  let main_v1 : FVec F S16x1048576 .f32 := broadcastInDim S16x1048576 ![] bcast_S_S16x1048576 main_cst
  let main_v2 : IVec S16x1048576 1 := cmpf .olt main_v0 main_v1
  let main_c : IVec S_ 1 := constantI S_ 1 1#1
  let main_v3 : IVec S_ 1 := (fun x v => Host.reduce IntOp.andi x v reducesTo_S16x1048576_S_d0_1 h_S_) main_v2 main_c
  main_v3
-- ==== Kernel.lean ====
abbrev S16x1048576 : Shape := ⟨2, ![16, 1048576]⟩
abbrev S_ : Shape := ⟨0, ![]⟩
abbrev S16x1 : Shape := ⟨2, ![16, 1]⟩
abbrev S16x512 : Shape := ⟨2, ![16, 512]⟩
abbrev S16x1049088 : Shape := ⟨2, ![16, 1049088]⟩
abbrev S16x1049600 : Shape := ⟨2, ![16, 1049600]⟩
abbrev S16x4100x256 : Shape := ⟨3, ![16, 4100, 256]⟩
abbrev S16x4096x1 : Shape := ⟨3, ![16, 4096, 1]⟩
abbrev S1x4100x256 : Shape := ⟨3, ![1, 4100, 256]⟩
abbrev S1x4096x1 : Shape := ⟨3, ![1, 4096, 1]⟩
abbrev S4100x256 : Shape := ⟨2, ![4100, 256]⟩
abbrev S4100 : Shape := ⟨1, ![4100]⟩
abbrev S4100x1 : Shape := ⟨2, ![4100, 1]⟩
abbrev S4096x1 : Shape := ⟨2, ![4096, 1]⟩

abbrev nBuf : Space → Nat
  | .hbm => 12
  | .vmem => 4
  | .smem => 0
  | _ => 0

abbrev bufTy : (tb : Table) → Fin (tcTables nBuf tb) → BufTy
  | .hbm, ⟨0, _⟩ => ⟨S16x1048576, .f32⟩
  | .hbm, ⟨1, _⟩ => ⟨S_, .i32⟩
  | .hbm, ⟨2, _⟩ => ⟨S16x1, .f32⟩
  | .hbm, ⟨3, _⟩ => ⟨S16x512, .f32⟩
  | .hbm, ⟨4, _⟩ => ⟨S16x512, .f32⟩
  | .hbm, ⟨5, _⟩ => ⟨S16x1049088, .f32⟩
  | .hbm, ⟨6, _⟩ => ⟨S16x1, .f32⟩
  | .hbm, ⟨7, _⟩ => ⟨S16x512, .f32⟩
  | .hbm, ⟨8, _⟩ => ⟨S16x512, .f32⟩
  | .hbm, ⟨9, _⟩ => ⟨S16x1049600, .f32⟩
  | .hbm, ⟨10, _⟩ => ⟨S16x4100x256, .f32⟩
  | .hbm, ⟨11, _⟩ => ⟨S16x4096x1, .f32⟩
  | .local _ .vmem, ⟨0, _⟩ => ⟨S1x4100x256, .f32⟩
  | .local _ .vmem, ⟨1, _⟩ => ⟨S1x4100x256, .f32⟩
  | .local _ .vmem, ⟨2, _⟩ => ⟨S1x4096x1, .f32⟩
  | .local _ .vmem, ⟨3, _⟩ => ⟨S1x4096x1, .f32⟩
  | _, _ => ⟨S16x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4100x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S16x1048576_S16x1_0_0 : S16x1048576.Slices ![0, 0] S16x1
  slices_S16x1048576_S16x512_0_1 : S16x1048576.Slices ![0, 1] S16x512
  concatenates_S16x512_S16x1048576_S16x1049088_d1 : Shape.Concatenates [S16x512, S16x1048576] S16x1049088 1
  slices_S16x1049088_S16x1_0_1049087 : S16x1049088.Slices ![0, 1049087] S16x1
  slices_S16x1049088_S16x512_0_1048575 : S16x1049088.Slices ![0, 1048575] S16x512
  concatenates_S16x1049088_S16x512_S16x1049600_d1 : Shape.Concatenates [S16x1049088, S16x512] S16x1049600 1
  shapeCasts_S16x1049600_S16x4100x256 : S16x1049600.ShapeCasts S16x4100x256
  inb_S1x4100x256_S1x4100x256_0_0_0 : ∀ a, (![0, 0, 0] : Fin 3 → Nat) a + S1x4100x256.size a ≤ S1x4100x256.size a
  h_S1x4100x256 : 0 < S1x4100x256.numel
  shapeCasts_S1x4100x256_S4100x256 : S1x4100x256.ShapeCasts S4100x256
  reduces_S4100x256_S4100 : S4100x256.Reduces [1] S4100
  shapeCasts_S4100_S4100x1 : S4100.ShapeCasts S4100x1
  slices_S4100x1_o0_0_S4096x1 : S4100x1.Slices ![0, 0] S4096x1
  slices_S4100x1_o1_0_S4096x1 : S4100x1.Slices ![1, 0] S4096x1
  slices_S4100x1_o2_0_S4096x1 : S4100x1.Slices ![2, 0] S4096x1
  slices_S4100x1_o3_0_S4096x1 : S4100x1.Slices ![3, 0] S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4100x256.size a ≤ S16x4100x256.size a
  hwx0_0 : ∀ i : grid0.Coords, EltTy.bits .f32 = 32 ∨ (Rect.block (s := S16x4100x256) S1x4100x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S16x4096x1.size a
  hwx0_1 : ∀ i : grid0.Coords, EltTy.bits .f32 = 32 ∨ (Rect.block (s := S16x4096x1) S1x4096x1.size (cc0_transform_1 i) (hinb0_1 i)).WholeWords (EltTy.packing .f32)

variable [Facts₀]

abbrev win0_0 : Pipeline.Window sig grid0 :=
  Pipeline.Window.ofSpec (Memref.whole main_v1) S1x4100x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1048576 : Shape := ⟨2, ![16, 1048576]⟩
abbrev S_ : Shape := ⟨0, ![]⟩
abbrev S16x1 : Shape := ⟨2, ![16, 1]⟩
abbrev S16x512 : Shape := ⟨2, ![16, 512]⟩
abbrev S16x1049088 : Shape := ⟨2, ![16, 1049088]⟩
abbrev S16x1049600 : Shape := ⟨2, ![16, 1049600]⟩
abbrev S4097 : Shape := ⟨1, ![4097]⟩
abbrev S4097x1 : Shape := ⟨2, ![4097, 1]⟩
abbrev S1024 : Shape := ⟨1, ![1024]⟩
abbrev S1x1024 : Shape := ⟨2, ![1, 1024]⟩
abbrev S4097x1024 : Shape := ⟨2, ![4097, 1024]⟩
abbrev S4097x1024x1 : Shape := ⟨3, ![4097, 1024, 1]⟩
abbrev S16x4097x1024 : Shape := ⟨3, ![16, 4097, 1024]⟩
abbrev S16x4096x1024 : Shape := ⟨3, ![16, 4096, 1024]⟩
abbrev S16x4096 : Shape := ⟨2, ![16, 4096]⟩
abbrev S16x4096x1 : Shape := ⟨3, ![16, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x1048576, .f32⟩
  | .hbm, ⟨1, _⟩ => ⟨S_, .i32⟩
  | .hbm, ⟨2, _⟩ => ⟨S16x1, .f32⟩
  | .hbm, ⟨3, _⟩ => ⟨S16x512, .f32⟩
  | .hbm, ⟨4, _⟩ => ⟨S16x512, .f32⟩
  | .hbm, ⟨5, _⟩ => ⟨S16x1049088, .f32⟩
  | .hbm, ⟨6, _⟩ => ⟨S16x1, .f32⟩
  | .hbm, ⟨7, _⟩ => ⟨S16x512, .f32⟩
  | .hbm, ⟨8, _⟩ => ⟨S16x512, .f32⟩
  | .hbm, ⟨9, _⟩ => ⟨S16x1049600, .f32⟩
  | .hbm, ⟨10, _⟩ => ⟨S4097, .i32⟩
  | .hbm, ⟨11, _⟩ => ⟨S4097x1, .i32⟩
  | .hbm, ⟨12, _⟩ => ⟨S_, .i32⟩
  | .hbm, ⟨13, _⟩ => ⟨S4097x1, .i32⟩
  | .hbm, ⟨14, _⟩ => ⟨S4097x1, .i32⟩
  | .hbm, ⟨15, _⟩ => ⟨S1024, .i32⟩
  | .hbm, ⟨16, _⟩ => ⟨S1x1024, .i32⟩
  | .hbm, ⟨17, _⟩ => ⟨S4097x1024, .i32⟩
  | .hbm, ⟨18, _⟩ => ⟨S4097x1024, .i32⟩
  | .hbm, ⟨19, _⟩ => ⟨S4097x1024, .i32⟩
  | .hbm, ⟨20, _⟩ => ⟨S_, .i32⟩
  | .hbm, ⟨21, _⟩ => ⟨S4097x1024, .i32⟩
  | .hbm, ⟨22, _⟩ => ⟨S4097x1024, .i1⟩
  | .hbm, ⟨23, _⟩ => ⟨S_, .i32⟩
  | .hbm, ⟨24, _⟩ => ⟨S4097x1024, .i32⟩
  | .hbm, ⟨25, _⟩ => ⟨S4097x1024, .i32⟩
  | .hbm, ⟨26, _⟩ => ⟨S4097x1024, .i32⟩
  | .hbm, ⟨27, _⟩ => ⟨S4097x1024x1, .i32⟩
  | .hbm, ⟨28, _⟩ => ⟨S16x4097x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S_, .f32⟩
  | .hbm, ⟨35, _⟩ => ⟨S16x4096x1, .f32⟩
  | .hbm, ⟨36, _⟩ => ⟨S16x4096x1, .f32⟩
  | .hbm, ⟨37, _⟩ => ⟨S16x4096x1, .f32⟩
  | _, _ => ⟨S16x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  slices_S16x1048576_S16x1_0_0 : S16x1048576.Slices ![0, 0] S16x1
  slices_S16x1048576_S16x512_0_1 : S16x1048576.Slices ![0, 1] S16x512
  concatenates_S16x512_S16x1048576_S16x1049088_d1 : Shape.Concatenates [S16x512, S16x1048576] S16x1049088 1
  slices_S16x1049088_S16x1_0_1049087 : S16x1049088.Slices ![0, 1049087] S16x1
  slices_S16x1049088_S16x512_0_1048575 : S16x1049088.Slices ![0, 1048575] S16x512
  concatenates_S16x1049088_S16x512_S16x1049600_d1 : Shape.Concatenates [S16x1049088, S16x512] S16x1049600 1
  bcast_S4097_S4097x1_0 : S4097.BroadcastsInDim S4097x1 (![0] : Fin 1 → Fin S4097x1.rank)
  bcast_S_S4097x1 : S_.BroadcastsInDim S4097x1 (![] : Fin 0 → Fin S4097x1.rank)
  bcast_S1024_S1x1024_1 : S1024.BroadcastsInDim S1x1024 (![1] : Fin 1 → Fin S1x1024.rank)
  bcast_S4097x1_S4097x1024_0_1 : S4097x1.BroadcastsInDim S4097x1024 (![0, 1] : Fin 2 → Fin S4097x1024.rank)
  bcast_S1x1024_S4097x1024_0_1 : S1x1024.BroadcastsInDim S4097x1024 (![0, 1] : Fin 2 → Fin S4097x1024.rank)
  bcast_S_S4097x1024 : S_.BroadcastsInDim S4097x1024 (![] : Fin 0 → Fin S4097x1024.rank)
  bcast_S4097x1024_S4097x1024x1_0_1 : S4097x1024.BroadcastsInDim S4097x1024x1 (![0, 1] : Fin 2 → Fin S4097x1024x1.rank)
  slices_S16x4097x1024_S16x4096x1024_0_0_0 : S16x4097x1024.Slices ![0, 0, 0] S16x4096x1024
  reducesTo_S16x4096x1024_S16x4096_d2 : S16x4096x1024.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  gather_S16x1049600_S4097x1024x1_S16x4097x1024_0_1_n_n_1_2_161_wf : GatherDims.WF S16x1049600 S4097x1024x1 S16x4097x1024 [0] [1] [] [1] [] 2 ![16, 1]

variable [Facts₀]

def gather_S16x1049600_S4097x1024x1_S16x4097x1024_0_1_n_n_1_2_161 : GatherDims S16x1049600 S4097x1024x1 S16x4097x1024 where
  offsetDims := [0]
  collapsedSliceDims := [1]
  operandBatchingDims := []
  startIndicesBatchingDims := []
  startIndexMap := [1]
  indexVectorDim := 2
  sliceSizes := ![16, 1]
  wf := gather_S16x1049600_S4097x1024x1_S16x4097x1024_0_1_n_n_1_2_161_wf

class Facts : Prop extends Facts₀ where

variable [Facts]
-- ==== Proof.Pad.lean ====
/-
  The reflect padding both programs apply to the signal before anything else, as one function of the signal.

  A row of 1048576 samples gets 512 samples in front — samples 1 … 512 of the row, reversed — and 512 behind:
  the last 512 samples but one of the row (read off the row already extended in front), reversed. The
  certificate never reads a padded sample: what matters is only that the kernel's program and the reference
  build the padded rows by the same operations, so that both results are functions of this one array.
-/
import Idealize.ShloMosaic.PureOps

noncomputable section

namespace Cert.Energy

open Idealize.ShloMosaic

/-- The signal: 16 rows of 1048576 samples. -/
abbrev SIn : Shape := ⟨2, ![16, 1048576]⟩
/-- One reflected edge: 512 samples per row. -/
abbrev SEdge : Shape := ⟨2, ![16, 512]⟩
/-- The rows extended in front. -/
abbrev SFront : Shape := ⟨2, ![16, 1049088]⟩
/-- The reflect-padded rows: 16 rows of 1049600 samples. -/
abbrev SRow : Shape := ⟨2, ![16, 1049600]⟩

theorem slices_head : SIn.Slices ![0, 1] SEdge := by decide
theorem cat_front : Shape.Concatenates [SEdge, SIn] SFront 1 := by decide
theorem slices_tail : SFront.Slices ![0, 1048575] SEdge := by decide
theorem cat_row : Shape.Concatenates [SFront, SEdge] SRow 1 := by decide

/-- The rows extended in front by their reflected head. -/
def padFront {α : Type} (x : SIn.Idx → α) : SFront.Idx → α :=
  concatenate SFront 1 [⟨SEdge, Host.reverse [1] (extractStridedSlice SEdge ![0, 1] x slices_head)⟩, ⟨SIn, x⟩] cat_front

/-- The reflect-padded rows. -/
def padRows {α : Type} (x : SIn.Idx → α) : SRow.Idx → α :=
  concatenate SRow 1 [⟨SFront, padFront x⟩,
    ⟨SEdge, Host.reverse [1] (extractStridedSlice SEdge ![0, 1048575] (padFront x) slices_tail)⟩] cat_row

end Cert.Energy

end
-- ==== Proof.KernelHost.lean ====
/-
  Where the kernel's samples lie, for any float values: the operations here only move samples.

  The host operations before the region build the padded rows (`Cert.Energy.padRows` of the signal) and re-lay
  each row of 1049600 samples as 4100 chunks of 256. Grid point `t` (16 points, one per row) reads block
  `(t, 0, 0)` of that array — row `t`, whole — and writes block `(t, 0, 0)` of the result array — row `t` of the
  energies, whole. The block reads are stated for an arbitrary array, so that nothing about the array's contents
  is ever computed to read a block of it; the 16 output blocks cover the result array.
-/
import proofs.«101700_j30889404793022_1_alg».proof.Proof.ValuePatched
import proofs.«101700_j30889404793022_1_alg».proof.Proof.Pad
import Idealize.ShloMosaic.Lib.StableHlo.Run
import Idealize.ShloMosaic.Lib.Tactic
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]
variable (m : (ℓ : Loc nD τ sig) → Buf (Elt F) ℓ)

/-! ## The array the region finds -/

/-- The region's input array is the padded rows of the signal as launched, each row re-laid as 4100 chunks of 256
    samples. -/
theorem V_chunks (c : Dev nD) :
    (V m c main_v1 : S16x4100x256.Idx → Elt F .f32)
      = shapeCast S16x4100x256 (Cert.Energy.padRows (m ((c : Thread nD τ).loc main_arg0)))
          shapeCasts_S16x1049600_S16x4100x256 := by
  dsimp only [Gen.V]
  simp only [hostOps0, hostOps0_1, hostOps0_2, List.flatten_cons, List.flatten_nil, List.append_nil, List.cons_append,
    List.nil_append]
  after_results
  simp only [StableHlo.TRef.ofBuf, StableHlo.TRef.toBuf, cast_eq]
  rfl

/-- The same, the array named as the region's first window names it. -/
theorem V_chunks0 (c : Dev nD) :
    (V m c (Pipeline.arrRef spec0 0) : S16x4100x256.Idx → Elt F .f32)
      = shapeCast S16x4100x256 (Cert.Energy.padRows (m ((c : Thread nD τ).loc main_arg0)))
          shapeCasts_S16x1049600_S16x4100x256 :=
  V_chunks m c

/-! ## The blocks -/

/-- Point `t` reads block `(t, 0, 0)` of the input and writes block `(t, 0, 0)` of the result. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem row_lt (t : Fin cfg0.N) : t.val < 16 := lt_of_lt_of_eq t.isLt N_0

theorem sample_lt {r l : ℕ} (hr : r < 4100) (hl : l < 256) : r * 256 + l < 1049600 := by omega

/-- Point `t`'s input block of ANY array of the input's shape is its row `t`. -/
theorem blk0_read (c : Dev nD) (A : Buf (Elt F) ((c : Thread nD τ).loc (Pipeline.arrRef spec0 0))) (t : Fin cfg0.N)
    (r : Fin 4100) (l : Fin 256) :
    (((cfg0.win 0).blk t).view.read (Elt F) A : Vec F S1x4100x256 .f32) (ix3 (0 : Fin 1) r l)
      = (A : S16x4100x256.Idx → Elt F .f32) (ix3 ⟨t.val, row_lt t⟩ r l) := by
  obtain ⟨e0, e1, e2, -, -, -⟩ := block_index t
  rw [View.read_apply]
  show A (((cfg0.win 0).blk t).view.emb (ix3 (0 : Fin 1) r l)) = _
  congr 1
  funext a
  apply Fin.ext
  match a with
  | ⟨0, _⟩ => show win0_0.index t (0 : Fin 3) * 1 + 1 * 0 = t.val; omega
  | ⟨1, _⟩ => show win0_0.index t (1 : Fin 3) * 4100 + 1 * r.val = r.val; omega
  | ⟨2, _⟩ => show win0_0.index t (2 : Fin 3) * 256 + 1 * l.val = l.val; omega

/-- The input block at point `t` is row `t` of the padded rows: chunk `r`, lane `l` is sample `256 r + l`. -/
theorem iblk_apply (c : Dev nD) (t : Fin cfg0.N) (r : Fin 4100) (l : Fin 256) :
    (iblk m c 0 t : Vec F S1x4100x256 .f32) (ix3 (0 : Fin 1) r l)
      = Cert.Energy.padRows (m ((c : Thread nD τ).loc main_arg0))
          (ix2 ⟨t.val, row_lt t⟩ ⟨r.val * 256 + l.val, sample_lt r.isLt l.isLt⟩) := by
  unfold iblk
  refine (blk0_read c (V m c (Pipeline.arrRef spec0 0)) t r l).trans ?_
  refine (congrFun (V_chunks0 m c) _).trans ?_
  refine shapeCast_apply _ _ _ _ ?_
  rw [Shape.rowMajor_val_two, Shape.rowMajor_val_three]
  show t.val * 1049600 + (r.val * 256 + l.val) = (t.val * 4100 + r.val) * 256 + l.val
  omega

/-- Point `t`'s output block of ANY array of the result's shape is its row `t`. -/
theorem blk1_read (c : Dev nD) (A : Buf (Elt F) ((c : Thread nD τ).loc (Pipeline.arrRef spec0 1))) (t : Fin cfg0.N)
    (j : S1x4096x1.Idx) :
    (((cfg0.win 1).blk t).view.read (Elt F) A : Vec F S1x4096x1 .f32) j
      = (A : S16x4096x1.Idx → Elt F .f32)
          (ix3 ⟨t.val, row_lt t⟩ (⟨(j 1).val, (j 1).isLt⟩ : Fin 4096) (⟨(j 2).val, (j 2).isLt⟩ : Fin 1)) := by
  obtain ⟨-, -, -, e3, e4, e5⟩ := block_index t
  have hj0 : (j 0).val < 1 := (j 0).isLt
  rw [View.read_apply]
  show A (((cfg0.win 1).blk t).view.emb j) = _
  congr 1
  funext a
  apply Fin.ext
  match a with
  | ⟨0, _⟩ => show win0_1.index t (0 : Fin 3) * 1 + 1 * (j 0).val = t.val; omega
  | ⟨1, _⟩ => show win0_1.index t (1 : Fin 3) * 4096 + 1 * (j 1).val = (j 1).val; omega
  | ⟨2, _⟩ => show win0_1.index t (2 : Fin 3) * 1 + 1 * (j 2).val = (j 2).val; omega

/-- The output window's blocks lie inside the array, so a write-back writes the staging buffer whole. -/
theorem cut1 (t : Fin cfg0.N) (B : Vec F S1x4096x1 .f32) : (cfg0.win 1).cut (grid0.coords t) B = B := rfl

/-- Every index of the result array lies in the block of the point of its row. -/
theorem covered (i : S16x4096x1.Idx) :
    ∃ t : Fin cfg0.N, (cfg0.win 1).flush t = true ∧ i ∈ ((cfg0.win 1).blk t).view.set := by
  have hi0 : (i 0).val < 16 := (i 0).isLt
  have hi1 : (i 1).val < 4096 := (i 1).isLt
  have hi2 : (i 2).val < 1 := (i 2).isLt
  obtain ⟨t, ht⟩ : ∃ t : Fin cfg0.N, t.val = (i 0).val := ⟨⟨(i 0).val, lt_of_lt_of_eq hi0 N_0.symm⟩, rfl⟩
  obtain ⟨-, -, -, e3, e4, e5⟩ := block_index t
  refine ⟨t, flush0_1 t, ?_⟩
  show i ∈ ((View.whole main_v2).slice (win0_1.rect t)).set
  rw [View.set_slice_whole, Rect.mem_set_unit]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 4096 ≤ (i 1).val ∧ (i 1).val < win0_1.index t (1 : Fin 3) * 4096 + 4096
    omega
  | ⟨2, _⟩ =>
    show win0_1.index t (2 : Fin 3) * 1 ≤ (i 2).val ∧ (i 2).val < win0_1.index t (2 : Fin 3) * 1 + 1
    omega

end Cert.KernelIdeal.Hand

end
-- ==== Proof.LibSums.lean ====
/-
  Finite sums regrouped: a sum over `a + b` indices split at `a`; a sum over `T * R` indices as `T` blocks of
  `R` consecutive indices (index `R * t + r`: the position `r` inside a block is the fast coordinate); and the
  block-by-block partial sums an induction over the blocks needs. Everything holds in any additive commutative
  monoid, so in particular on the extended reals with no finiteness side condition.
-/
import Mathlib.Algebra.BigOperators.Fin
import Mathlib.Algebra.BigOperators.Group.Finset.Basic
import Mathlib.Logic.Equiv.Fin.Basic

namespace Cert.Sums

open scoped BigOperators

variable {M : Type*} [AddCommMonoid M]

/-! ## A sum split in two -/

/-- A sum over `a + b` indices is the sum over the first `a` of them plus the sum over the last `b`. -/
theorem sum_split (a b : ℕ) (f : Fin (a + b) → M) :
    ∑ k, f k = ∑ k : Fin a, f (Fin.castAdd b k) + ∑ k : Fin b, f (Fin.natAdd a k) :=
  Fin.sum_univ_add f

/-- A sum over 256 indices is the sum over the indices `k < 128` plus the sum over the indices `128 + k`. -/
theorem sum_split_128_128 (f : Fin 256 → M) :
    ∑ k, f k = ∑ k : Fin 128, f ⟨k.val, by omega⟩ + ∑ k : Fin 128, f ⟨128 + k.val, by omega⟩ :=
  sum_split 128 128 f

/-! ## A sum cut into blocks -/

/-- Position `r < R` of block `t < T` is an index below `T * R`. -/
theorem block_index_lt {T R t r : ℕ} (ht : t < T) (hr : r < R) : R * t + r < T * R := by
  calc R * t + r < R * t + R := by omega
    _ = R * (t + 1) := (Nat.mul_succ R t).symm
    _ ≤ R * T := Nat.mul_le_mul_left _ ht
    _ = T * R := Nat.mul_comm _ _

/-- A sum over `T * R` indices is the sum over the `T` blocks of the sum over the `R` positions of each block;
position `r` of block `t` is the index `R * t + r`. -/
theorem sum_blocks (T R : ℕ) (f : Fin (T * R) → M) :
    ∑ n, f n = ∑ t : Fin T, ∑ r : Fin R, f ⟨R * t.val + r.val, block_index_lt t.isLt r.isLt⟩ := by
  rw [← (finProdFinEquiv (m := T) (n := R)).sum_comp f, Fintype.sum_prod_type]
  refine Finset.sum_congr rfl fun t _ => Finset.sum_congr rfl fun r _ => ?_
  congr 1
  apply Fin.ext
  simp only [finProdFinEquiv_apply_val]
  omega

/-- A sum over 50000 indices is the sum over 25 blocks of 2000: position `r` of block `t` is `2000 * t + r`. -/
theorem sum_blocks_25_2000 (f : Fin 50000 → M) :
    ∑ n, f n = ∑ t : Fin 25, ∑ r : Fin 2000, f ⟨2000 * t.val + r.val, by omega⟩ :=
  sum_blocks 25 2000 f

/-! ## Partial sums, block by block -/

/-- The sum of the first `n` blocks (`n ≤ T`) of a family over `T * R` indices. -/
def prefixBlocks (T R : ℕ) (f : Fin (T * R) → M) (n : ℕ) (hn : n ≤ T) : M :=
  ∑ t : Fin n, ∑ r : Fin R, f ⟨R * t.val + r.val, block_index_lt (lt_of_lt_of_le t.isLt hn) r.isLt⟩

/-- No block: the partial sum is zero. -/
theorem prefixBlocks_zero (T R : ℕ) (f : Fin (T * R) → M) : prefixBlocks T R f 0 (Nat.zero_le T) = 0 := by
  simp [prefixBlocks]

/-- The sum of the first `n + 1` blocks is the sum of the first `n` blocks plus the sum over block `n`. -/
theorem prefixBlocks_succ (T R : ℕ) (f : Fin (T * R) → M) (n : ℕ) (hn : n < T) :
    prefixBlocks T R f (n + 1) hn
      = prefixBlocks T R f n (Nat.le_of_lt hn) + ∑ r : Fin R, f ⟨R * n + r.val, block_index_lt hn r.isLt⟩ := by
  unfold prefixBlocks
  rw [Fin.sum_univ_castSucc]
  rfl

/-- All `T` blocks: the partial sum is the whole sum. -/
theorem prefixBlocks_all (T R : ℕ) (f : Fin (T * R) → M) : prefixBlocks T R f T (Nat.le_refl T) = ∑ n, f n := by
  rw [sum_blocks T R f]; rfl

/-- A running total that starts at zero and, at block `n`, grows by the sum over block `n`, is after the last
block the sum over all `T * R` indices. -/
theorem sum_of_block_recursion (T R : ℕ) (f : Fin (T * R) → M) (acc : ℕ → M) (h0 : acc 0 = 0)
    (hs : ∀ (n : ℕ) (hn : n < T), acc (n + 1) = acc n + ∑ r : Fin R, f ⟨R * n + r.val, block_index_lt hn r.isLt⟩) :
    acc T = ∑ n, f n := by
  have key : ∀ (n : ℕ) (hn : n ≤ T), acc n = prefixBlocks T R f n hn := by
    intro n
    induction n with
    | zero => intro _; rw [h0, prefixBlocks_zero]
    | succ n ih => intro hn; rw [hs n hn, ih (Nat.le_of_lt hn), prefixBlocks_succ]
  rw [key T (Nat.le_refl T), prefixBlocks_all]

/-- The same over sums indexed by natural numbers: the sum over the first `(n + 1) * R` indices is the sum over the
first `n * R` plus the sum over the `R` indices `R * n + r` of block `n`. -/
theorem sum_range_succ_mul (R n : ℕ) (g : ℕ → M) :
    ∑ i ∈ Finset.range ((n + 1) * R), g i
      = ∑ i ∈ Finset.range (n * R), g i + ∑ r ∈ Finset.range R, g (R * n + r) := by
  rw [Nat.succ_mul, Finset.sum_range_add, Nat.mul_comm n R]

/-- 25 blocks of 2000: a running total that starts at zero and at block `n` grows by the sum over the indices
`2000 * n + r` is, after block 24, the sum over all 50000 indices. -/
theorem sum_of_block_recursion_25_2000 (f : Fin 50000 → M) (acc : ℕ → M) (h0 : acc 0 = 0)
    (hs : ∀ (n : ℕ) (hn : n < 25), acc (n + 1) = acc n + ∑ r : Fin 2000, f ⟨2000 * n + r.val, by omega⟩) :
    acc 25 = ∑ n, f n :=
  sum_of_block_recursion 25 2000 f acc h0 hs

end Cert.Sums
-- ==== Proof.Spec.lean ====
/-
  The mathematics both programs compute, as ONE function of the reflect-padded rows.

  A padded row has 1049600 samples. Frame `f` (of 4096) is the 1024 consecutive samples from `256 f` on, and its
  energy is the square root of the mean of their squares. A row is also 4100 chunks of 256 samples, and a frame is
  exactly four consecutive chunks, `f, f+1, f+2, f+3`: so the sum of a frame's squares is the sum of four chunk
  sums (`frame_eq_chunks`). That regrouping is a law of any additive commutative monoid, so it holds on the
  extended reals with no finiteness condition. The mean is a product with `1/1024`, which the float word
  `0x3A800000` denotes exactly; the float word `0x44800000` denotes `1024`, and dividing an extended real by
  `1024` is the product with `1/1024`.
-/
import Idealize.ShloMosaic.PureOps.Ideal
import Idealize.ShloMosaic.PureOps.Ideal.Laws
import Idealize.ShloMosaic.Lib.ValueIdx
import proofs.«101700_j30889404793022_1_alg».proof.Proof.LibSums
import proofs.«101700_j30889404793022_1_alg».proof.Proof.Pad

noncomputable section

namespace Cert.Energy

open Idealize.ShloMosaic Idealize.ShloMosaic.ValueIdx
open scoped BigOperators

/-- The energies: per row, 4096 frames, a trailing unit axis. -/
abbrev SOut : Shape := ⟨3, ![16, 4096, 1]⟩

/-- Sample `n` of row `b`, squared. -/
def sq (P : SRow.Idx → EReal) (b : Fin 16) (n : Fin 1049600) : EReal := P (ix2 b n) * P (ix2 b n)

theorem chunk_lt {r l : ℕ} (hr : r < 4100) (hl : l < 256) : r * 256 + l < 1049600 := by omega
theorem frame_lt {f j : ℕ} (hf : f < 4096) (hj : j < 1024) : f * 256 + j < 1049600 := by omega

/-- The sum of the squares of chunk `r`: samples `256 r + l`, `l < 256`. -/
def chunk (P : SRow.Idx → EReal) (b : Fin 16) (r : Fin 4100) : EReal :=
  ∑ l : Fin 256, sq P b ⟨r.val * 256 + l.val, chunk_lt r.isLt l.isLt⟩

/-- The sum of the squares of frame `f`: samples `256 f + j`, `j < 1024`. -/
def frame (P : SRow.Idx → EReal) (b : Fin 16) (f : Fin 4096) : EReal :=
  ∑ j : Fin 1024, sq P b ⟨f.val * 256 + j.val, frame_lt f.isLt j.isLt⟩

/-- A frame is four consecutive chunks. -/
theorem frame_eq_chunks (P : SRow.Idx → EReal) (b : Fin 16) (f : Fin 4096) :
    frame P b f = chunk P b ⟨f.val, by omega⟩ + chunk P b ⟨f.val + 1, by omega⟩
      + chunk P b ⟨f.val + 2, by omega⟩ + chunk P b ⟨f.val + 3, by omega⟩ := by
  unfold frame chunk
  rw [Cert.Sums.sum_blocks 4 256 (fun j : Fin 1024 => sq P b ⟨f.val * 256 + j.val, frame_lt f.isLt j.isLt⟩),
    Fin.sum_univ_four]
  have key : ∀ (k : ℕ) (hk : k < 4), (∑ r : Fin 256, sq P b ⟨f.val * 256 + (256 * k + r.val), by omega⟩)
      = ∑ l : Fin 256, sq P b ⟨(f.val + k) * 256 + l.val, by omega⟩ := by
    intro k hk
    refine Finset.sum_congr rfl fun l _ => ?_
    congr 1
    apply Fin.ext
    show f.val * 256 + (256 * k + l.val) = (f.val + k) * 256 + l.val
    ring
  have k0 := key 0 (by omega)
  have k1 := key 1 (by omega)
  have k2 := key 2 (by omega)
  have k3 := key 3 (by omega)
  simp only [Nat.add_zero] at k0
  exact congrArg₂ (· + ·) (congrArg₂ (· + ·) (congrArg₂ (· + ·) k0 k1) k2) k3

/-- The energy of frame `f` of row `b`: the square root of the mean of the frame's squares. -/
def rms (P : SRow.Idx → EReal) (b : Fin 16) (f : Fin 4096) : EReal :=
  Ideal.sqrt (frame P b f * ((1 / 1024 : ℝ) : EReal))

/-- The result array as one function of the padded rows. -/
def G (P : SRow.Idx → EReal) : SOut.Idx → EReal :=
  fun i => rms P ⟨(i 0).val, (i 0).isLt⟩ ⟨(i 1).val, (i 1).isLt⟩

/-! ## The float words -/

/-- The word `0x3A800000` is `2⁻¹⁰ = 1/1024`. -/
theorem ofBits_inv1024 : Ideal.ofBits .f32 0x3A800000#32 = ((1 / 1024 : ℝ) : EReal) := by
  simp [Ideal.ofBits, Ideal.ieee, -EReal.coe_mul]; norm_num

/-- The word `0x44800000` is `1024`. -/
theorem ofBits_1024 : Ideal.ofBits .f32 0x44800000#32 = ((1024 : ℝ) : EReal) := by
  simp [Ideal.ofBits, Ideal.ieee, -EReal.coe_mul]; norm_num

/-- The energy in the form the kernel computes it: four chunk sums added left to right, times the word for `1/1024`. -/
theorem rms_of_chunks (P : SRow.Idx → EReal) (b : Fin 16) (f : Fin 4096) :
    Ideal.sqrt ((chunk P b ⟨f.val, by omega⟩ + chunk P b ⟨f.val + 1, by omega⟩
      + chunk P b ⟨f.val + 2, by omega⟩ + chunk P b ⟨f.val + 3, by omega⟩) * Ideal.ofBits .f32 0x3A800000#32)
      = rms P b f := by
  rw [rms, frame_eq_chunks, ofBits_inv1024]

/-- The energy in the form the reference computes it: the sum from the zero word, divided by the word for `1024`. -/
theorem rms_of_mean (P : SRow.Idx → EReal) (b : Fin 16) (f : Fin 4096) :
    Ideal.sqrt (Ideal.div (Ideal.ofBits .f32 0x00000000#32 + frame P b f) (Ideal.ofBits .f32 0x44800000#32))
      = rms P b f := by
  rw [rms, Ideal.ofBits_zero_f32, zero_add, ofBits_1024, Ideal.div_coe (by norm_num : (1024 : ℝ) ≠ 0)]

end Cert.Energy

end
-- ==== Proof.KernelValue.lean ====
/-
  What the kernel's result array holds after the run, at the extended reals.

  The region finds the padded rows, each re-laid as 4100 chunks of 256 samples. Grid point `t` (one per row, 16 of
  them) loads row `t` whole, sums the squares of every chunk along the lanes, adds each four consecutive chunk
  sums, multiplies by `1/1024` and takes the square root: entry `f` of its block is the energy of frame `f` of
  row `t`. The 16 blocks tile the result array, which therefore is `Cert.Energy.G` of the padded rows.
-/
import proofs.«101700_j30889404793022_1_alg».proof.Proof.KernelHost
import proofs.«101700_j30889404793022_1_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen Cert.KernelIdeal.ValueP

/-! ## A lane sum and the block's entries, over variables -/

/-- A sum along the lanes of a [4100, 256] tile, read at row `r`, is the plain sum of that row. -/
theorem laneSum (X : FVec Ideal S4100x256 .f32) (h : S4100x256.Reduces [1] S4100) (hφ : FKind.Formats .f32)
    (hacc : (0x00000000#32 : BitVec 32) = FKind.add.neutral .f32 hφ) (r : Fin 4100) :
    multiReduction .add [1] S4100 X 0x00000000#32 h hφ hacc (ix1 r) = ∑ l : Fin 256, X (ix2 r l) := by
  refine (Ideal.multiReduction_add_single X 0x00000000#32 h hφ hacc (ix1 r)).trans ?_
  refine Finset.sum_congr rfl fun l _ => congrArg X ?_
  funext a
  apply Fin.ext
  match a with
  | ⟨0, _⟩ => rfl
  | ⟨1, _⟩ => rfl

/-- The row sums of the squares of a loaded row are the chunk sums of the padded row it holds. -/
theorem chunkSum (P : Cert.Energy.SRow.Idx → EReal) (b : Fin 16) (X : Vec Ideal S1x4100x256 .f32)
    (hX : ∀ (r : Fin 4100) (l : Fin 256),
      X (ix3 (0 : Fin 1) r l) = P (ix2 b ⟨r.val * 256 + l.val, Cert.Energy.chunk_lt r.isLt l.isLt⟩))
    (i : S4100.Idx) (r : Fin 4100) (hi : i = ix1 r) :
    multiReduction (F := Ideal) .add [1] S4100 (mulf (F := Ideal) (shapeCast S4100x256 X shapeCasts_S1x4100x256_S4100x256)
        (shapeCast S4100x256 X shapeCasts_S1x4100x256_S4100x256)) 0x00000000#32 reduces_S4100x256_S4100 (.inl rfl) rfl i
      = Cert.Energy.chunk P b r := by
  subst hi
  refine (laneSum _ _ _ _ r).trans ?_
  unfold Cert.Energy.chunk Cert.Energy.sq
  refine Finset.sum_congr rfl fun l _ => ?_
  have e : shapeCast S4100x256 X shapeCasts_S1x4100x256_S4100x256 (ix2 r l)
      = P (ix2 b ⟨r.val * 256 + l.val, Cert.Energy.chunk_lt r.isLt l.isLt⟩) :=
    (shapeCast_apply X _ (ix2 r l) (ix3 (0 : Fin 1) r l) (by
      rw [Shape.rowMajor_val_three, Shape.rowMajor_val_two]
      show (0 * 4100 + r.val) * 256 + l.val = r.val * 256 + l.val
      omega)).trans (hX r l)
  show shapeCast S4100x256 X shapeCasts_S1x4100x256_S4100x256 (ix2 r l)
      * shapeCast S4100x256 X shapeCasts_S1x4100x256_S4100x256 (ix2 r l) = _
  rw [e]

/-- Entry `f` of the block a point leaves is the energy of frame `f` of the row the point loaded. -/
theorem block_eq (P : Cert.Energy.SRow.Idx → EReal) (b : Fin 16) (X : Vec Ideal S1x4100x256 .f32)
    (hX : ∀ (r : Fin 4100) (l : Fin 256),
      X (ix3 (0 : Fin 1) r l) = P (ix2 b ⟨r.val * 256 + l.val, Cert.Energy.chunk_lt r.isLt l.isLt⟩))
    (y : S1x4096x1.Idx) :
    E1 X y = Cert.Energy.rms P b ⟨(y 1).val, (y 1).isLt⟩ := by
  have hy : (y 1).val < 4096 := (y 1).isLt
  have e0 := chunkSum P b X hX (ix1_0 y) ⟨(y 1).val, by omega⟩ (funext fun a => by match a with | ⟨0, _⟩ => rfl)
  have e1 := chunkSum P b X hX (ix1_1 y) ⟨(y 1).val + 1, by omega⟩ (funext fun a => by match a with | ⟨0, _⟩ => rfl)
  have e2 := chunkSum P b X hX (ix1_2 y) ⟨(y 1).val + 2, by omega⟩ (funext fun a => by match a with | ⟨0, _⟩ => rfl)
  have e3 := chunkSum P b X hX (ix1_3 y) ⟨(y 1).val + 3, by omega⟩ (funext fun a => by match a with | ⟨0, _⟩ => rfl)
  refine Eq.trans ?_ (Cert.Energy.rms_of_chunks P b ⟨(y 1).val, (y 1).isLt⟩)
  show FloatOps.sqrt (FloatOps.mulf (FloatOps.addf (FloatOps.addf (FloatOps.addf _ _) _) _) _) = _
  rw [e0, e1, e2, e3]
  rfl

/-! ## The blocks, and the array after the run -/

variable (m : (ℓ : Loc nD τ sig) → Buf (Elt Ideal) ℓ) (ρ : Dev nD → PrngReg)

/-- The padded rows of the signal as launched. -/
abbrev rows (c : Dev nD) : Cert.Energy.SRow.Idx → EReal :=
  Cert.Energy.padRows (m ((c : Thread nD τ).loc main_arg0))

theorem zero3 : (![0, 0, 0] : Fin 3 → Nat) = fun _ => 0 := funext fun a => by fin_cases a <;> rfl

/-- What the body leaves in the result's staging buffer at point `t`: entry `f` is the energy of frame `f` of row `t`. -/
theorem out_apply (c : Dev nD) (t : Fin cfg0.N) (j : S1x4096x1.Idx) :
    out0_1 (iblk m c 0 t) j = Cert.Energy.rms (rows m c) ⟨t.val, row_lt t⟩ ⟨(j 1).val, (j 1).isLt⟩ := by
  unfold out0_1
  refine (canon1_eq (View.ld (iblk m c 0 t) r0_0) j).trans ?_
  refine block_eq (rows m c) ⟨t.val, row_lt t⟩ (View.ld (iblk m c 0 t) r0_0) (fun r l => ?_) j
  rw [View.ld_unit_zero (S := S1x4100x256) zero3]
  exact iblk_apply m c t r l

/-- What point `t` writes back is block `t` of the energies of the padded rows. -/
theorem flushed_eq (c : Dev nD) (t : Fin cfg0.N) :
    (dats m 0 c).flushed 1 t = ((cfg0.win 1).blk t).view.read (Elt Ideal) (Cert.Energy.G (rows m c)) := by
  rw [flushed1]
  funext j
  refine (congrFun (cut1 t (out0_1 (iblk m c 0 t))) j).trans ?_
  refine (out_apply m c t j).trans ?_
  refine Eq.trans ?_ (blk1_read (F := Ideal) c (Cert.Energy.G (rows m c)) t j).symm
  rfl

/-- The result array after the run is the energies of the padded rows: the 16 blocks cover it. -/
theorem final (c : Dev nD) : (dats m 0 c).arrAt 1 cfg0.N = Cert.Energy.G (rows m c) :=
  (dats m 0 c).arrAt_eq_of_cover 1 (Cert.Energy.G (rows m c)) (fun t _ => flushed_eq m c t) covered

/-- The kernel's run, read: the result array at the energies of the padded rows, the signal unchanged. -/
theorem run : θ_run defs (onTc (τ := τ) (main (F := Ideal))) ⟨m, fun _ => 0, ρ⟩ fun r => ∀ c : Dev nD,
      r.2.mem ((c : Thread nD τ).loc main_v2) = Cert.Energy.G (rows m c)
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Hand

end
-- ==== Proof.RefDefs.lean ====
/-
  The reference's result as a function of the padded rows, operation by operation: the table of sample
  positions `256 f + j` built from two iotas (with the wrap of a negative position that indexing by an
  integer array adds, which never fires here), the gather of those samples, the first 4096 frames, their
  squares summed along the frame, the quotient by 1024 and the square root.
-/
import proofs.«101700_j30889404793022_1_alg».proof.ReferenceIdeal
import proofs.«101700_j30889404793022_1_alg».proof.Proof.Gen.ReferenceIdeal
import proofs.«101700_j30889404793022_1_alg».proof.Proof.Pad

noncomputable section

namespace Cert.ReferenceIdeal.Ref

open Cert.ReferenceIdeal Cert.ReferenceIdeal.Gen Idealize.ShloMosaic

variable {F : FTy → Type} [FloatOps F]

/-- Position `256 f + j` of sample `j` of frame `f`, as 32-bit words: `iota(4097) * 256 + iota(1024)`. -/
def positions : IVec S4097x1024 32 :=
  addi
    (broadcastInDim S4097x1024 ![0, 1] bcast_S4097x1_S4097x1024_0_1
      (muli (broadcastInDim S4097x1 ![0] bcast_S4097_S4097x1_0 (iotaInDim S4097 32 0))
        (broadcastInDim S4097x1 ![] bcast_S_S4097x1 (constantI S_ 32 256#32))))
    (broadcastInDim S4097x1024 ![0, 1] bcast_S1x1024_S4097x1024_0_1
      (broadcastInDim S1x1024 ![1] bcast_S1024_S1x1024_1 (iotaInDim S1024 32 0)))

/-- The gather's start indices: a negative position is moved up by the row length (none is), and a trailing
    unit axis holds the index vector. -/
def starts : IVec S4097x1024x1 32 :=
  broadcastInDim S4097x1024x1 ![0, 1] bcast_S4097x1024_S4097x1024x1_0_1
    (select (cmpi .slt positions (broadcastInDim S4097x1024 ![] bcast_S_S4097x1024 (constantI S_ 32 0#32)))
      (addi positions (broadcastInDim S4097x1024 ![] bcast_S_S4097x1024 (constantI S_ 32 1049600#32)))
      positions)

/-- The first 4096 frames of the padded rows, sample by sample. -/
def frames (P : FVec F S16x1049600 .f32) : FVec F S16x4096x1024 .f32 :=
  extractStridedSlice S16x4096x1024 ![0, 0, 0]
    (Host.gather gather_S16x1049600_S4097x1024x1_S16x4097x1024_0_1_n_n_1_2_161 P starts)
    slices_S16x4097x1024_S16x4096x1024_0_0_0

/-- The reference's result from the padded rows. -/
def refOut (P : FVec F S16x1049600 .f32) : FVec F S16x4096x1 .f32 :=
  Host.sqrt (Host.divf
    (broadcastInDim S16x4096x1 ![0, 1] bcast_S16x4096_S16x4096x1_0_1
      (Host.reduceAdd (mulf (frames P) (frames P)) (constant S_ .f32 0x00000000#32) reducesTo_S16x4096x1024_S16x4096_d2 h_S_))
    (broadcastInDim S16x4096x1 ![] bcast_S_S16x4096x1 (constant S_ .f32 0x44800000#32)))

end Cert.ReferenceIdeal.Ref

end
-- ==== Proof.RefRun.lean ====
/-
  The reference's run.

  The reference program is a straight line of host operations: a scalar constant, the eight operations that
  reflect-pad the rows (two slices, a reversal and a concatenation in front; two slices, a reversal and a
  concatenation behind), then the table of sample positions, the gather of the frames, the first 4096 of
  them, their squares summed along the frame, the quotient by 1024 and the square root. Listed in order,
  every weakly fair execution runs them to the end, and the result buffer then holds the composition of the
  operations' functions applied to the signal: the result function of the padded rows, at the padded signal.
  The signal's buffer is written by no operation and keeps its contents.
-/
import proofs.«101700_j30889404793022_1_alg».proof.Proof.RefDefs
import Idealize.ShloMosaic.Lib.StableHlo.Run

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The program's 37 operations, in order: the padding function's eight listed where it is called, over the
    buffers that call names. -/
abbrev ops : List (HloOp τ sig (Elt F)) :=
  [ nullary main_c (constantI S_ 32 0#32),
    TRef.unary (.of main_arg0 : TRef sig ⟨S16x1048576, .f32⟩) main_call0.v0 (extractStridedSlice S16x1 ![0, 0] · slices_S16x1048576_S16x1_0_0),
    TRef.unary (.of main_arg0 : TRef sig ⟨S16x1048576, .f32⟩) main_call0.v1 (extractStridedSlice S16x512 ![0, 1] · slices_S16x1048576_S16x512_0_1),
    TRef.unary main_call0.v1 main_call0.call0.v0 (Host.reverse [1]),
    TRef.binary main_call0.call0.v0 (.of main_arg0 : TRef sig ⟨S16x1048576, .f32⟩) main_call0.v3 (fun a b => concatenate S16x1049088 1 [⟨S16x512, a⟩, ⟨S16x1048576, b⟩] concatenates_S16x512_S16x1048576_S16x1049088_d1),
    TRef.unary main_call0.v3 main_call0.v4 (extractStridedSlice S16x1 ![0, 1049087] · slices_S16x1049088_S16x1_0_1049087),
    TRef.unary main_call0.v3 main_call0.v5 (extractStridedSlice S16x512 ![0, 1048575] · slices_S16x1049088_S16x512_0_1048575),
    TRef.unary main_call0.v5 main_call0.call1.v0 (Host.reverse [1]),
    TRef.binary main_call0.v3 main_call0.call1.v0 main_call0.v7 (fun a b => concatenate S16x1049600 1 [⟨S16x1049088, a⟩, ⟨S16x512, b⟩] concatenates_S16x1049088_S16x512_S16x1049600_d1),
    nullary main_v1 (iotaInDim S4097 32 0),
    unary main_v1 main_v2 (broadcastInDim S4097x1 ![0] bcast_S4097_S4097x1_0 : (⟨S4097, .i32⟩ : BufTy).Contents (Elt F) → (⟨S4097x1, .i32⟩ : BufTy).Contents (Elt F)),
    nullary main_c_0 (constantI S_ 32 256#32),
    unary main_c_0 main_v3 (broadcastInDim S4097x1 ![] bcast_S_S4097x1 : (⟨S_, .i32⟩ : BufTy).Contents (Elt F) → (⟨S4097x1, .i32⟩ : BufTy).Contents (Elt F)),
    binary main_v2 main_v3 main_v4 (muli : (⟨S4097x1, .i32⟩ : BufTy).Contents (Elt F) → (⟨S4097x1, .i32⟩ : BufTy).Contents (Elt F) → (⟨S4097x1, .i32⟩ : BufTy).Contents (Elt F)),
    nullary main_v5 (iotaInDim S1024 32 0),
    unary main_v5 main_v6 (broadcastInDim S1x1024 ![1] bcast_S1024_S1x1024_1 : (⟨S1024, .i32⟩ : BufTy).Contents (Elt F) → (⟨S1x1024, .i32⟩ : BufTy).Contents (Elt F)),
    unary main_v4 main_v7 (broadcastInDim S4097x1024 ![0, 1] bcast_S4097x1_S4097x1024_0_1 : (⟨S4097x1, .i32⟩ : BufTy).Contents (Elt F) → (⟨S4097x1024, .i32⟩ : BufTy).Contents (Elt F)),
    unary main_v6 main_v8 (broadcastInDim S4097x1024 ![0, 1] bcast_S1x1024_S4097x1024_0_1 : (⟨S1x1024, .i32⟩ : BufTy).Contents (Elt F) → (⟨S4097x1024, .i32⟩ : BufTy).Contents (Elt F)),
    binary main_v7 main_v8 main_v9 (addi : (⟨S4097x1024, .i32⟩ : BufTy).Contents (Elt F) → (⟨S4097x1024, .i32⟩ : BufTy).Contents (Elt F) → (⟨S4097x1024, .i32⟩ : BufTy).Contents (Elt F)),
    nullary main_c_1 (constantI S_ 32 0#32),
    unary main_c_1 main_v10 (broadcastInDim S4097x1024 ![] bcast_S_S4097x1024 : (⟨S_, .i32⟩ : BufTy).Contents (Elt F) → (⟨S4097x1024, .i32⟩ : BufTy).Contents (Elt F)),
    binary main_v9 main_v10 main_v11 (cmpi .slt : (⟨S4097x1024, .i32⟩ : BufTy).Contents (Elt F) → (⟨S4097x1024, .i32⟩ : BufTy).Contents (Elt F) → (⟨S4097x1024, .i1⟩ : BufTy).Contents (Elt F)),
    nullary main_c_2 (constantI S_ 32 1049600#32),
    unary main_c_2 main_v12 (broadcastInDim S4097x1024 ![] bcast_S_S4097x1024 : (⟨S_, .i32⟩ : BufTy).Contents (Elt F) → (⟨S4097x1024, .i32⟩ : BufTy).Contents (Elt F)),
    binary main_v9 main_v12 main_v13 (addi : (⟨S4097x1024, .i32⟩ : BufTy).Contents (Elt F) → (⟨S4097x1024, .i32⟩ : BufTy).Contents (Elt F) → (⟨S4097x1024, .i32⟩ : BufTy).Contents (Elt F)),
    ternary main_v11 main_v13 main_v9 main_v14 (select : (⟨S4097x1024, .i1⟩ : BufTy).Contents (Elt F) → (⟨S4097x1024, .i32⟩ : BufTy).Contents (Elt F) → (⟨S4097x1024, .i32⟩ : BufTy).Contents (Elt F) → (⟨S4097x1024, .i32⟩ : BufTy).Contents (Elt F)),
    unary main_v14 main_v15 (broadcastInDim S4097x1024x1 ![0, 1] bcast_S4097x1024_S4097x1024x1_0_1 : (⟨S4097x1024, .i32⟩ : BufTy).Contents (Elt F) → (⟨S4097x1024x1, .i32⟩ : BufTy).Contents (Elt F)),
    binary main_v0 main_v15 main_v16 ((fun x i => Host.gather gather_S16x1049600_S4097x1024x1_S16x4097x1024_0_1_n_n_1_2_161 x i) : (⟨S16x1049600, .f32⟩ : BufTy).Contents (Elt F) → (⟨S4097x1024x1, .i32⟩ : BufTy).Contents (Elt F) → (⟨S16x4097x1024, .f32⟩ : BufTy).Contents (Elt F)),
    unary main_v16 main_v17 ((extractStridedSlice S16x4096x1024 ![0, 0, 0] · slices_S16x4097x1024_S16x4096x1024_0_0_0) : (⟨S16x4097x1024, .f32⟩ : BufTy).Contents (Elt F) → (⟨S16x4096x1024, .f32⟩ : BufTy).Contents (Elt F)),
    binary main_v17 main_v17 main_v18 (mulf : (⟨S16x4096x1024, .f32⟩ : BufTy).Contents (Elt F) → (⟨S16x4096x1024, .f32⟩ : BufTy).Contents (Elt F) → (⟨S16x4096x1024, .f32⟩ : BufTy).Contents (Elt F)),
    nullary main_cst (constant S_ .f32 0x00000000#32),
    binary main_v18 main_cst main_v19 ((fun x v => Host.reduceAdd x v reducesTo_S16x4096x1024_S16x4096_d2 h_S_) : (⟨S16x4096x1024, .f32⟩ : BufTy).Contents (Elt F) → (⟨S_, .f32⟩ : BufTy).Contents (Elt F) → (⟨S16x4096, .f32⟩ : BufTy).Contents (Elt F)),
    unary main_v19 main_v20 (broadcastInDim S16x4096x1 ![0, 1] bcast_S16x4096_S16x4096x1_0_1 : (⟨S16x4096, .f32⟩ : BufTy).Contents (Elt F) → (⟨S16x4096x1, .f32⟩ : BufTy).Contents (Elt F)),
    nullary main_cst_3 (constant S_ .f32 0x44800000#32),
    unary main_cst_3 main_v21 (broadcastInDim S16x4096x1 ![] bcast_S_S16x4096x1 : (⟨S_, .f32⟩ : BufTy).Contents (Elt F) → (⟨S16x4096x1, .f32⟩ : BufTy).Contents (Elt F)),
    binary main_v20 main_v21 main_v22 (Host.divf : (⟨S16x4096x1, .f32⟩ : BufTy).Contents (Elt F) → (⟨S16x4096x1, .f32⟩ : BufTy).Contents (Elt F) → (⟨S16x4096x1, .f32⟩ : BufTy).Contents (Elt F)),
    unary main_v22 main_v23 (Host.sqrt : (⟨S16x4096x1, .f32⟩ : BufTy).Contents (Elt F) → (⟨S16x4096x1, .f32⟩ : BufTy).Contents (Elt F)) ]

-- thirty-seven binds re-associated once the two outlined functions are unfolded at their calls
set_option maxRecDepth 1024 in
/-- The program is that straight line: the padding function and the reversal it calls unfolded where they are
    called, the records read at their fields, the sequencing re-associated. -/
theorem main_eq (c : Dev nD) : main (F := F) c = seq ops := by
  simp only [main, fn_pad.body, fn_flip.body, seq, bind_assoc, pure_bind]

/-- No buffer of the program is scoped: every one holds a tensor value. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., binary_bufs_sub .., unary_bufs_sub ..,
    nullary_bufs_sub .., unary_bufs_sub .., binary_bufs_sub .., unary_bufs_sub ..⟩

/-- What the result buffer holds after the line, from any contents: the result function of the padded rows at
    the padded signal. Each operation's result is read off at its own buffer and passed over at every other;
    what is left is the composition of the operations' functions, which is the definition of the result. -/
theorem out_eq (V : Valuation τ sig (Elt F)) :
    after ops V (main_v23 : DevRef τ sig) = refOut (Cert.Energy.padRows (V (main_arg0 : DevRef τ sig))) := by
  after_results
  simp only [TRef.ofBuf, TRef.toBuf, cast_eq]
  rfl

/-- No operation writes the signal's buffer: after the line it holds what it held. -/
theorem arg0_eq (V : Valuation τ sig (Elt F)) :
    after ops V (main_arg0 : DevRef τ sig) = V (main_arg0 : DevRef τ sig) := by
  after_results

/-- On every device, for any float values, from any memory with zero counters: every weakly fair execution of
    the reference terminates with the result buffer at the result function of the padded rows, taken at the
    reflect-padded signal, and with the signal unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refOut (Cert.Energy.padRows (m ((c.tc : Thread nD τ).loc main_arg0)))
      ∧ r.2.mem ((c.tc : Thread nD τ).loc main_arg0) = m ((c.tc : Thread nD τ).loc main_arg0) :=
  (θ_run defs _ _).mono (fun _ h c => ⟨(h c main_v23).trans (out_eq _), (h c main_arg0).trans (arg0_eq _)⟩)
    (run_seq scopedRefs_eq scopedSems_eq defs main (fun _ => ops) main_eq (fun _ => ops_sub) m ρ)

end Cert.ReferenceIdeal.Ref

end
-- ==== Proof.RefRead.lean ====
/-
  The reference's result read at an index, at the ideal values.

  Four readings, then their composition.
  * The table of start positions. Entry `(f, j)` is the 32-bit word `iota(f) * 256 + iota(j)`; since `f < 4097` and
    `j < 1024` no product or sum wraps, so the word is the number `256 f + j`. That number is below `2^31`, so the
    signed comparison with zero is false, the branch that adds the row length is never taken, and the word read as a
    signed integer is `256 f + j` again.
  * The gather. The operand has a row axis, carried whole to the result (an offset axis with no start component), and a
    sample axis, collapsed and indexed by the one component of the start vector. So result element `(b, f, j)` is the
    operand at row `b` and at the start `(f, j)` clamped into the row, `min start 1049599`.
  * A frame's sample. The largest position is `4096 * 256 + 1023 = 1049599`, so the clamp is the identity, and
    dropping the last frame keeps the coordinates: sample `j` of frame `f < 4096` of row `b` is the padded row at
    `256 f + j`.
  * The sum along the frame is a sum over `j < 1024` of the squares of those samples from the zero word: the sum of
    the frame's squares. The quotient by the word for `1024` and the square root are pointwise, which is the energy in
    the form `Cert.Energy.rms_of_mean` reads.
-/
import proofs.«101700_j30889404793022_1_alg».proof.Proof.RefDefs
import proofs.«101700_j30889404793022_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.Ref

open Cert.ReferenceIdeal Cert.ReferenceIdeal.Gen Idealize.ShloMosaic Idealize.ShloMosaic.ValueIdx
open Idealize.ShloMosaic.StableHlo.Predicate
open scoped BigOperators

/-! ## The table of start positions -/

/-- Entry `(f, j)` of the position table, as the words are combined: `f * 256 + j` in 32-bit arithmetic. -/
theorem positions_word (f : Fin 4097) (j : Fin 1024) :
    positions (ix2 f j) = BitVec.ofNat 32 f.val * 256#32 + BitVec.ofNat 32 j.val := rfl

/-- With `f < 4097` and `j < 1024` neither the product nor the sum wraps: the word is the number `256 f + j`. -/
theorem word_eq (f : Fin 4097) (j : Fin 1024) :
    BitVec.ofNat 32 f.val * 256#32 + BitVec.ofNat 32 j.val = BitVec.ofNat 32 (f.val * 256 + j.val) := by
  apply BitVec.eq_of_toNat_eq
  have hf := f.isLt
  have hj := j.isLt
  simp only [BitVec.toNat_add, BitVec.toNat_mul, BitVec.toNat_ofNat]
  omega

/-- The start index of sample `j` of frame `f` is the word `256 f + j`: it is below `2^31`, hence not negative as
    a signed word, and the branch that moves a negative position up by the row length is not taken. -/
theorem starts_word (f : Fin 4097) (j : Fin 1024) :
    starts (ix3 f j (0 : Fin 1)) = BitVec.ofNat 32 (f.val * 256 + j.val) := by
  have hf := f.isLt
  have hj := j.isLt
  have hp : positions (ix2 f j) = BitVec.ofNat 32 (f.val * 256 + j.val) :=
    (positions_word f j).trans (word_eq f j)
  have h0 : starts (ix3 f j (0 : Fin 1))
      = Scalar.select (IntOp.cmpi .slt (positions (ix2 f j)) 0#32)
          (IntOp.addi (positions (ix2 f j)) 1049600#32) (positions (ix2 f j)) := rfl
  rw [h0, hp]
  have hc : IntOp.cmpi .slt (BitVec.ofNat 32 (f.val * 256 + j.val)) 0#32 = 0#1 := by
    apply eq_zero_of_ne_one
    intro h
    have h1 : (BitVec.ofNat 32 (f.val * 256 + j.val)).toNat < 2 ^ 31 := by
      rw [BitVec.toNat_ofNat]; omega
    have h2 := (slt_iff_toNat h1 (by decide)).mp h
    simp at h2
  rw [hc, select_zero]

/-- Read as a signed integer, the start index is the natural number `256 f + j`. -/
theorem starts_nat (f : Fin 4097) (j : Fin 1024) :
    (starts (ix3 f j (0 : Fin 1))).toInt.toNat = f.val * 256 + j.val := by
  have hf := f.isLt
  have hj := j.isLt
  rw [starts_word, toInt_ofNat_small _ (by omega)]
  exact Int.toNat_natCast _

/-! ## The gather read at an index -/

/-- For these dimension numbers (rows an offset axis of full extent, samples a collapsed axis indexed by the one
    component of the start vector), result element `(b, f, j)` is the operand at row `b` and at the start index
    `(f, j)`, read signed and clamped into the row. On the row axis the start and the batching coordinate are zero
    and the offset coordinate is `b`; on the sample axis the batching and the offset coordinates are zero and the start
    is the clamped index. -/
theorem gather_apply {α : Type} {w : Nat} (P : S16x1049600.Idx → α) (idx : IVec S4097x1024x1 w)
    (b : Fin 16) (f : Fin 4097) (j : Fin 1024) :
    Host.gather gather_S16x1049600_S4097x1024x1_S16x4097x1024_0_1_n_n_1_2_161 P idx (ix3 b f j)
      = P (ix2 b ⟨min (idx (ix3 f j (0 : Fin 1))).toInt.toNat (1049600 - 1), by omega⟩) := by
  unfold Host.gather
  congr 1
  funext a
  refine Fin.ext ?_
  match a with
  | ⟨0, _⟩ =>
    show gather_S16x1049600_S4097x1024x1_S16x4097x1024_0_1_n_n_1_2_161.start (ix3 b f j) idx 0
      + gather_S16x1049600_S4097x1024x1_S16x4097x1024_0_1_n_n_1_2_161.batchCoord (ix3 b f j) 0
      + gather_S16x1049600_S4097x1024x1_S16x4097x1024_0_1_n_n_1_2_161.offCoord (ix3 b f j) 0 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show gather_S16x1049600_S4097x1024x1_S16x4097x1024_0_1_n_n_1_2_161.start (ix3 b f j) idx 1
      + gather_S16x1049600_S4097x1024x1_S16x4097x1024_0_1_n_n_1_2_161.batchCoord (ix3 b f j) 1
      + gather_S16x1049600_S4097x1024x1_S16x4097x1024_0_1_n_n_1_2_161.offCoord (ix3 b f j) 1 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (1 : Fin 2) ∈
      gather_S16x1049600_S4097x1024x1_S16x4097x1024_0_1_n_n_1_2_161.startIndexMap from List.mem_singleton.mpr rfl)]
    have hsi : gather_S16x1049600_S4097x1024x1_S16x4097x1024_0_1_n_n_1_2_161.siIdx (ix3 b f j)
        ⟨List.idxOf (1 : Fin 2) gather_S16x1049600_S4097x1024x1_S16x4097x1024_0_1_n_n_1_2_161.startIndexMap,
          List.idxOf_lt_length_iff.2 (List.mem_singleton.mpr rfl)⟩ = ix3 f j (0 : Fin 1) := by
      funext c; refine Fin.ext ?_
      match c with
      | ⟨0, _⟩ => rfl
      | ⟨1, _⟩ => rfl
      | ⟨2, _⟩ => rfl
    rw [hsi]
    rfl

/-! ## A frame's sample -/

/-- A sample of one of the first 4096 frames: the padded row at position `256 f + j`. The position is at most
    `1049599`, so the gather's clamp leaves it as it is. -/
theorem frames_apply (P : FVec Ideal S16x1049600 .f32) (b : Fin 16) (f : Fin 4096) (j : Fin 1024) :
    frames (F := Ideal) P (ix3 b f j)
      = P (ix2 b ⟨f.val * 256 + j.val, Cert.Energy.frame_lt f.isLt j.isLt⟩) := by
  have hf := f.isLt
  have hj := j.isLt
  have hf' : f.val < 4097 := by omega
  unfold frames
  refine (extractStridedSlice_apply _ _ _ (ix3 b f j) (ix3 b (⟨f.val, hf'⟩ : Fin 4097) j) ?_).trans ?_
  · intro a
    match a with
    | ⟨0, _⟩ => exact (Nat.zero_add _).symm
    | ⟨1, _⟩ => exact (Nat.zero_add _).symm
    | ⟨2, _⟩ => exact (Nat.zero_add _).symm
  · refine (gather_apply P starts b ⟨f.val, hf'⟩ j).trans ?_
    refine congrArg (fun n : Fin 1049600 => P (ix2 b n)) (Fin.ext ?_)
    have hs : (starts (ix3 (⟨f.val, hf'⟩ : Fin 4097) j (0 : Fin 1))).toInt.toNat = f.val * 256 + j.val :=
      starts_nat _ j
    show min (starts (ix3 (⟨f.val, hf'⟩ : Fin 4097) j (0 : Fin 1))).toInt.toNat (1049600 - 1)
      = f.val * 256 + j.val
    rw [hs]
    omega

/-! ## The result -/

/-- The reference's result is the energy array `Cert.Energy.G` of the padded rows: at `(b, f, 0)` the sum from the
    zero word of the squares of frame `f` of row `b`, divided by the word for `1024`, under the square root. -/
theorem refOut_eq (P : FVec Ideal S16x1049600 .f32) : refOut (F := Ideal) P = Cert.Energy.G P := by
  funext i
  obtain ⟨b, f, c, rfl⟩ : ∃ (b : Fin 16) (f : Fin 4096) (c : Fin 1), i = ix3 b f c :=
    ⟨i 0, i 1, i 2, eq_ix3 i⟩
  show _ = Cert.Energy.rms P b f
  rw [← Cert.Energy.rms_of_mean]
  have hred : S16x4096x1024.Reduces [2] S16x4096 := by decide
  have hsum : broadcastInDim S16x4096x1 ![0, 1] bcast_S16x4096_S16x4096x1_0_1
      (Host.reduceAdd (mulf (frames (F := Ideal) P) (frames (F := Ideal) P))
        (constant (F := Ideal) S_ .f32 0x00000000#32) reducesTo_S16x4096x1024_S16x4096_d2 h_S_) (ix3 b f c)
      = Ideal.ofBits .f32 0x00000000#32 + Cert.Energy.frame P b f := by
    refine (broadcastInDim_apply _ _ _ (ix3 b f c) (ix2 b f) ?_).trans ?_
    · intro a
      match a with
      | ⟨0, _⟩ => rfl
      | ⟨1, _⟩ => rfl
    · unfold Host.reduceAdd
      rw [Ideal.hostReduceAdd_def]
      refine (Ideal.hostReduceAdd_single _ hred _ _ (ix2 b f)).trans ?_
      refine congrArg₂ (· + ·) rfl ?_
      unfold Cert.Energy.frame
      refine Finset.sum_congr rfl fun k _ => ?_
      have hl : hred.lift (ix2 b f) k = ix3 b f (⟨k.val, k.isLt⟩ : Fin 1024) := by
        funext a
        match a with
        | ⟨0, _⟩ => exact Fin.ext rfl
        | ⟨1, _⟩ => exact Fin.ext rfl
        | ⟨2, _⟩ => exact Fin.ext rfl
      show frames (F := Ideal) P (hred.lift (ix2 b f) k) * frames (F := Ideal) P (hred.lift (ix2 b f) k) = _
      rw [hl, frames_apply]
      rfl
  show Ideal.sqrt (Ideal.div (broadcastInDim S16x4096x1 ![0, 1] bcast_S16x4096_S16x4096x1_0_1
      (Host.reduceAdd (mulf (frames (F := Ideal) P) (frames (F := Ideal) P))
        (constant (F := Ideal) S_ .f32 0x00000000#32) reducesTo_S16x4096x1024_S16x4096_d2 h_S_) (ix3 b f c))
      (Ideal.ofBits .f32 0x44800000#32)) = _
  rw [hsum]

end Cert.ReferenceIdeal.Ref

end
-- ==== Proof.lean ====
/-
  Overlapping-frame energy: the kernel against its reference, over the extended reals.

  Both programs reflect-pad each row of the signal to 1049600 samples by the same operations; call the padded rows
  `P`. The reference gathers, for each of 4096 frames, the 1024 consecutive samples from `256 f` on and returns the
  square root of the mean of their squares. The kernel views a padded row as 4100 chunks of 256 samples, sums the
  squares of every chunk, adds each four consecutive chunk sums, multiplies by `1/1024` and takes the square root.
  A frame is exactly four consecutive chunks, so the two sums of squares are one sum regrouped — a law of addition
  alone, valid at the infinities — and dividing by `1024` is multiplying by `1/1024`; the float word for `1/1024`
  denotes that rational exactly. Hence both results are the one function `Cert.Energy.G` of `P`
  (Proof/Spec.lean): the kernel's by Proof/KernelValue.lean over the blocks of Proof/KernelHost.lean, the
  reference's by its run (Proof/RefRun.lean) read at an index (Proof/RefRead.lean). The precondition is not
  used. The frames of the two kernel programs are the class's whole certificates; the reference's frame is its
  run with the result dropped; the idealization rewrote nothing, so `preserves` is `True`.
-/
import proofs.«101700_j30889404793022_1_alg».proof.Defs
import proofs.«101700_j30889404793022_1_alg».proof.Proof.Gen.Kernel
import proofs.«101700_j30889404793022_1_alg».proof.Proof.Gen.Kernel.Skeleton
import proofs.«101700_j30889404793022_1_alg».proof.Proof.Gen.Kernel.Launch
import proofs.«101700_j30889404793022_1_alg».proof.Proof.Gen.Kernel.Points
import proofs.«101700_j30889404793022_1_alg».proof.Proof.Gen.Kernel.Frame
import proofs.«101700_j30889404793022_1_alg».proof.Proof.Gen.KernelIdeal
import proofs.«101700_j30889404793022_1_alg».proof.Proof.Gen.KernelIdeal.Skeleton
import proofs.«101700_j30889404793022_1_alg».proof.Proof.Gen.KernelIdeal.Launch
import proofs.«101700_j30889404793022_1_alg».proof.Proof.Gen.KernelIdeal.Points
import proofs.«101700_j30889404793022_1_alg».proof.Proof.Gen.KernelIdeal.Frame
import proofs.«101700_j30889404793022_1_alg».proof.Proof.Gen.ReferenceIdeal
import proofs.«101700_j30889404793022_1_alg».proof.Proof.Gen.Pre_finite_inputs
import proofs.«101700_j30889404793022_1_alg».proof.Proof.KernelValue
import proofs.«101700_j30889404793022_1_alg».proof.Proof.RefRun
import proofs.«101700_j30889404793022_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Ref.run (F := Ideal) m ρ)

/-- From memories that agree on the signal, both programs end with the energies `Cert.Energy.G` of the padded rows
    in their result arrays, the signal unchanged. -/
theorem algebraic : Cert.algebraic_KernelIdeal_ReferenceIdeal := by
  intro m ρ m' ρ' _ hagree
  refine ⟨fun c => Cert.Energy.G (Cert.KernelIdeal.Hand.rows m c), Cert.KernelIdeal.Hand.run m ρ, ?_⟩
  refine (θ_run Cert.ReferenceIdeal.defs _ _).mono (fun _ h c => ⟨(h c).1.trans ?_, (h c).2⟩)
    (Cert.ReferenceIdeal.Ref.run (F := Ideal) m' ρ')
  rw [hagree c, Cert.ReferenceIdeal.Ref.refOut_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
